-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)
  ∧ IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S16384x64 : Shape := ⟨2, ![16384, 64]⟩
abbrev S16384 : Shape := ⟨1, ![16384]⟩
abbrev S16384x1 : Shape := ⟨2, ![16384, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  slices_S16384x128_o0_0_S16384x64 : S16384x128.Slices ![0, 0] S16384x64
  reduces_S16384x64_S16384 : S16384x64.Reduces [1] S16384
  shapeCasts_S16384_S16384x1 : S16384.ShapeCasts S16384x1
  broadcasts_S16384x1_S16384x64 : S16384x1.Broadcasts S16384x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.RowSpec.lean ====
/-
  One token's row against the memory bank, over the extended reals.

  A row `x : Fin 128 → EReal` of the feature tensor and the bank `mb : Fin 64 → Fin 128 → EReal`.
  Every bank row is divided by its Euclidean norm floored at `eps` (`bank`). The result for the row
  is its unit vector plus the softmax-weighted mean of the bank rows, the weights the softmax over
  the 64 slots of the cosine similarities divided by the temperature.

  Two spellings of that one function are defined here.
  * `rowK`: the unit vector as `x · (max (∑ x²) eps²)^(-1/2)`; the similarities as the raw products
    `∑ x · (bank / temp)` scaled afterwards by the same inverse norm; the softmax shifted by the
    constant `1 / temp` (an upper bound of every similarity, since both vectors are unit vectors).
  * `rowR`: the unit vector as `x / max (√(∑ x²)) eps`; the similarities of the unit vector divided
    by `temp`; the softmax shifted by a number `M`, for which `rowMax` is the row's largest similarity.
  `invTemp` is exactly `1 / temp` and `epsSq` exactly `eps²`, as rationals.
-/
import Idealize.ShloMosaic.PureOps.Ideal

noncomputable section

namespace Cert.EmaRow

open Idealize.ShloMosaic

/-- The floor under a Euclidean norm: the binary fraction nearest `1e-12`. -/
def eps : EReal := Ideal.ofBits .f32 0x2B8CBCCC#32
/-- The temperature: the binary fraction nearest `0.07`, which is `9395241 / 2^27`. -/
def temp : EReal := Ideal.ofBits .f32 0x3D8F5C29#32
/-- The reciprocal of the temperature, `2^27 / 9395241`. -/
def invTemp : EReal := ((134217728 / 9395241 : ℝ) : EReal)
/-- The square of `eps`, which is `(2305843 / 2^61)²`. -/
def epsSq : EReal := ((5316911940649 / 5316911983139663491615228241121378304 : ℝ) : EReal)
/-- The value a running maximum starts from: `-∞`. -/
def negInf : EReal := Ideal.ofBits .f32 0xFF800000#32

/-- Entry `k` of bank row `j` divided by that row's floored norm. -/
def bank (mb : Fin 64 → Fin 128 → EReal) (j : Fin 64) (k : Fin 128) : EReal :=
  Ideal.div (mb j k) (max (Ideal.sqrt (∑ l : Fin 128, mb j l * mb j l)) eps)

/-- The sum of the squares of a row. -/
def sumSq (x : Fin 128 → EReal) : EReal := ∑ k : Fin 128, x k * x k

/-! ## The first spelling -/

/-- `(max (∑ x²) eps²)^(-1/2)`. -/
def invNorm (x : Fin 128 → EReal) : EReal := Ideal.rsqrt (max (sumSq x) epsSq)

/-- The unnormalised similarity with slot `j`, the temperature folded into the bank's side. -/
def rawSim (x : Fin 128 → EReal) (mb : Fin 64 → Fin 128 → EReal) (j : Fin 64) : EReal :=
  ∑ k : Fin 128, x k * (bank mb j k * invTemp)

/-- The softmax numerator of slot `j`, shifted by `1 / temp`. -/
def wK (x : Fin 128 → EReal) (mb : Fin 64 → Fin 128 → EReal) (j : Fin 64) : EReal :=
  Ideal.exp (rawSim x mb j * invNorm x - invTemp)

/-- Lane `d` of the result. -/
def rowK (x : Fin 128 → EReal) (mb : Fin 64 → Fin 128 → EReal) (d : Fin 128) : EReal :=
  x d * invNorm x + ∑ j : Fin 64, Ideal.div (wK x mb j) (∑ i : Fin 64, wK x mb i) * bank mb j d

/-! ## The second spelling -/

/-- Entry `k` of the row's unit vector. -/
def unit (x : Fin 128 → EReal) (k : Fin 128) : EReal :=
  Ideal.div (x k) (max (Ideal.sqrt (sumSq x)) eps)

/-- The similarity with slot `j`, divided by the temperature. -/
def sim (x : Fin 128 → EReal) (mb : Fin 64 → Fin 128 → EReal) (j : Fin 64) : EReal :=
  Ideal.div (∑ k : Fin 128, unit x k * bank mb j k) temp

/-- The row's largest similarity, as a maximum started from `-∞` and joined with `-∞` once more. -/
def rowMax (x : Fin 128 → EReal) (mb : Fin 64 → Fin 128 → EReal) : EReal :=
  max negInf ((Finset.univ : Finset (Fin 64)).fold max negInf (fun j => sim x mb j))

/-- The softmax numerator of slot `j`, shifted by `M`. -/
def wR (x : Fin 128 → EReal) (mb : Fin 64 → Fin 128 → EReal) (M : EReal) (j : Fin 64) : EReal :=
  Ideal.exp (sim x mb j - M)

/-- Lane `d` of the result. -/
def rowR (x : Fin 128 → EReal) (mb : Fin 64 → Fin 128 → EReal) (M : EReal) (d : Fin 128) : EReal :=
  unit x d + ∑ j : Fin 64, Ideal.div (wR x mb M j) (∑ i : Fin 64, wR x mb M i) * bank mb j d

end Cert.EmaRow

end
-- ==== Proof.ArraySpec.lean ====
/-
  The result array as one function of the two argument arrays.

  The feature tensor is `[16, 4096, 128]`: sixteen batches of 4096 tokens, each token a row of 128
  lanes; the memory bank is `[64, 128]`. Entry `(b, s, d)` of the result depends on the token's own
  row `(b, s, ·)` and on the whole bank, through the row function `Cert.EmaRow.rowK`.
-/
import proofs.«131216_g85598698209303_cont_9to1_m_192_15_alg».proof.Proof.RowSpec
import Idealize.ShloMosaic.Lib.ValueIdx

noncomputable section

namespace Cert.EmaRow

open Idealize.ShloMosaic Idealize.ShloMosaic.ValueIdx

/-- The token `(b, s)` of a feature tensor, as a row. -/
def tokenRow (X : (⟨3, ![16, 4096, 128]⟩ : Shape).Idx → EReal) (b : Fin 16) (s : Fin 4096) : Fin 128 → EReal :=
  fun k => X (ix3 b s k)

/-- The bank as a family of rows. -/
def bankRows (MB : (⟨2, ![64, 128]⟩ : Shape).Idx → EReal) : Fin 64 → Fin 128 → EReal :=
  fun j k => MB (ix2 j k)

/-- Entry `(b, s, d)` of the result. -/
def wholeAt (X : (⟨3, ![16, 4096, 128]⟩ : Shape).Idx → EReal) (MB : (⟨2, ![64, 128]⟩ : Shape).Idx → EReal)
    (b : Fin 16) (s : Fin 4096) (d : Fin 128) : EReal :=
  rowK (tokenRow X b s) (bankRows MB) d

/-- The result array. -/
def whole (X : (⟨3, ![16, 4096, 128]⟩ : Shape).Idx → EReal) (MB : (⟨2, ![64, 128]⟩ : Shape).Idx → EReal) :
    (⟨3, ![16, 4096, 128]⟩ : Shape).Idx → EReal :=
  fun i => wholeAt X MB (i 0) (i 1) (i 2)

theorem whole_ix3 (X : (⟨3, ![16, 4096, 128]⟩ : Shape).Idx → EReal) (MB : (⟨2, ![64, 128]⟩ : Shape).Idx → EReal)
    (b : Fin 16) (s : Fin 4096) (d : Fin 128) : whole X MB (ix3 b s d) = wholeAt X MB b s d := rfl

end Cert.EmaRow

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.KernelPay.lean ====
/-
  The kernel body's one stored value, read at an entry.

  A grid point loads a block `x0` of four batches, `[4, 4096, 128]`, and the whole bank `x1`,
  `[64, 128]`. The body lays the block's tokens out as the 16384 rows of one matrix (row
  `b · 4096 + s` is token `(b, s)`), and per row computes: the sum of squares (as a product with a
  matrix of ones, so that it arrives in every lane), its inverse square root floored below, the
  products with the normalised bank scaled by the inverse temperature, the exponentials of the
  rescaled products shifted by the inverse temperature, their sum over the 64 slots, the quotients,
  the quotient-weighted sum of the normalised bank rows, and the row's own normalised entries added
  to it. Entry `(b, s, d)` of the stored value is `Cert.EmaRow.rowK` of token `(b, s)`'s row and
  the bank's rows, at lane `d`.
-/
import proofs.«131216_g85598698209303_cont_9to1_m_192_15_alg».proof.Proof.Gen.KernelIdeal.Skeleton
import proofs.«131216_g85598698209303_cont_9to1_m_192_15_alg».proof.Proof.ArraySpec
import proofs.«131216_g85598698209303_cont_9to1_m_192_15_alg».proof.Proof.LibRowCasts
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.PureOps.IdealRules

noncomputable section

namespace Cert.KernelPay

open Cert.KernelIdeal Cert.KernelIdeal.Gen
open Idealize.ShloMosaic Idealize.ShloMosaic.ValueIdx Idealize.ShloMosaic.RowCasts Cert.EmaRow

/-! ## The body's value in named pieces -/

/-- The block's tokens as the rows of one matrix. -/
def flat (x0 : Vec Ideal S4x4096x128 .f32) : FVec Ideal S16384x128 .f32 :=
  shapeCast S16384x128 x0 shapeCasts_S4x4096x128_S16384x128

/-- The bank, each row divided by its floored norm. -/
def bankV (x1 : Vec Ideal S64x128 .f32) : FVec Ideal S64x128 .f32 :=
  divf x1 (broadcastTo S64x128 (maximumf (sqrt (shapeCast S64x1 (multiReduction .add [1] S64 (mulf x1 x1) 0x00000000#32 reduces_S64x128_S64 (.inl rfl) rfl) shapeCasts_S64_S64x1)) (broadcast S64x1 (Scalar.ofBits .f32 0x2B8CBCCC#32))) broadcasts_S64x1_S64x128)

/-- Each row's sum of squares, in every lane. -/
def sumSqV (x0 : Vec Ideal S4x4096x128 .f32) : FVec Ideal S16384x128 .f32 :=
  matmul dot_S16384x128_S128x128_S16384x128_1_0_0_1_n_n none (mulf (flat x0) (flat x0)) (broadcast S128x128 (Scalar.ofBits .f32 0x3F800000#32)) (constant S16384x128 .f32 0x00000000#32)

/-- Each row's inverse norm, in every lane. -/
def invV (x0 : Vec Ideal S4x4096x128 .f32) : FVec Ideal S16384x128 .f32 :=
  rsqrt (maximumf (sumSqV x0) (broadcast S16384x128 (Named.named κ "eps_squared" 0x179ABE15#32)))

/-- The unnormalised similarities. -/
def rawV (x0 : Vec Ideal S4x4096x128 .f32) (x1 : Vec Ideal S64x128 .f32) : FVec Ideal S16384x64 .f32 :=
  matmul dot_S16384x128_S128x64_S16384x64_1_0_0_1_n_n none (flat x0) (mulf (transpose S128x64 [1, 0] (bankV x1) transposes_S64x128_p1_0_S128x64) (broadcast S128x64 (Named.named κ "inv_temperature" 0x41649249#32))) (constant S16384x64 .f32 0x00000000#32)

/-- The shifted exponentials. -/
def expV (x0 : Vec Ideal S4x4096x128 .f32) (x1 : Vec Ideal S64x128 .f32) : FVec Ideal S16384x64 .f32 :=
  exp (subf (mulf (rawV x0 x1) (extractStridedSlice S16384x64 ![0, 0] (invV x0) slices_S16384x128_o0_0_S16384x64)) (broadcast S16384x64 (Named.named κ "inv_temperature" 0x41649249#32)))

/-- The softmax weights. -/
def attnV (x0 : Vec Ideal S4x4096x128 .f32) (x1 : Vec Ideal S64x128 .f32) : FVec Ideal S16384x64 .f32 :=
  divf (expV x0 x1) (broadcastTo S16384x64 (shapeCast S16384x1 (multiReduction .add [1] S16384 (expV x0 x1) 0x00000000#32 reduces_S16384x64_S16384 (.inl rfl) rfl) shapeCasts_S16384_S16384x1) broadcasts_S16384x1_S16384x64)

/-- The stored value is those pieces put together. -/
theorem pay_eq (x0 : Vec Ideal S4x4096x128 .f32) (x1 : Vec Ideal S64x128 .f32) :
    k0_pay1 (F := Ideal) x0 x1
      = shapeCast S4x4096x128 (addf (mulf (flat x0) (invV x0)) (matmul dot_S16384x64_S64x128_S16384x128_1_0_0_1_n_n none (attnV x0 x1) (bankV x1) (constant S16384x128 .f32 0x00000000#32))) shapeCasts_S16384x128_S4x4096x128 :=
  rfl

/-! ## The three matrix products read at an entry -/

/-! ### The contraction `Sq` -/

theorem lhsSq_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhsSq_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhsSq_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhsSq_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- Entry `(r, c)` of the product onto a zero accumulator: `∑ k, L (r, k) · R (k, c)`. -/
theorem matmulSq_apply (L : FVec Ideal S16384x128 .f32) (R : FVec Ideal S128x128 .f32) (r : Fin 16384) (c : Fin 128) :
    matmul dot_S16384x128_S128x128_S16384x128_1_0_0_1_n_n none L R (constant S16384x128 .f32 0x00000000#32) (ix2 r c)
      = ∑ k : Fin 128, L (ix2 r k) * R (ix2 k c) := by
  simp only [matmul]
  rw [Ideal.matmul_constant_zero_apply, ← Equiv.sum_comp (ValueIdx.contrEquiv1 dot_S16384x128_S128x128_S16384x128_1_0_0_1_n_n 128 rfl rfl).symm]
  refine Finset.sum_congr rfl fun k _ => ?_
  have hk := ValueIdx.contrEquiv1_symm_val dot_S16384x128_S128x128_S16384x128_1_0_0_1_n_n 128 rfl rfl k
  have el : dot_S16384x128_S128x128_S16384x128_1_0_0_1_n_n.lhsIdx (ix2 r c) ((ValueIdx.contrEquiv1 dot_S16384x128_S128x128_S16384x128_1_0_0_1_n_n 128 rfl rfl).symm k) = ix2 r k := funext fun a => Fin.ext (by
    match a with
    | ⟨0, _⟩ => exact lhsSq_0 _ _
    | ⟨1, _⟩ => exact (lhsSq_1 _ _).trans hk)
  have er : dot_S16384x128_S128x128_S16384x128_1_0_0_1_n_n.rhsIdx (ix2 r c) ((ValueIdx.contrEquiv1 dot_S16384x128_S128x128_S16384x128_1_0_0_1_n_n 128 rfl rfl).symm k) = ix2 k c := funext fun a => Fin.ext (by
    match a with
    | ⟨0, _⟩ => exact (rhsSq_0 _ _).trans hk
    | ⟨1, _⟩ => exact rhsSq_1 _ _)
  rw [el, er]

/-! ### The contraction `Sim` -/

theorem lhsSim_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhsSim_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhsSim_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhsSim_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

/-- Entry `(r, c)` of the product onto a zero accumulator: `∑ k, L (r, k) · R (k, c)`. -/
theorem matmulSim_apply (L : FVec Ideal S16384x128 .f32) (R : FVec Ideal S128x64 .f32) (r : Fin 16384) (c : Fin 64) :
    matmul dot_S16384x128_S128x64_S16384x64_1_0_0_1_n_n none L R (constant S16384x64 .f32 0x00000000#32) (ix2 r c)
      = ∑ k : Fin 128, L (ix2 r k) * R (ix2 k c) := by
  simp only [matmul]
  rw [Ideal.matmul_constant_zero_apply, ← Equiv.sum_comp (ValueIdx.contrEquiv1 dot_S16384x128_S128x64_S16384x64_1_0_0_1_n_n 128 rfl rfl).symm]
  refine Finset.sum_congr rfl fun k _ => ?_
  have hk := ValueIdx.contrEquiv1_symm_val dot_S16384x128_S128x64_S16384x64_1_0_0_1_n_n 128 rfl rfl k
  have el : dot_S16384x128_S128x64_S16384x64_1_0_0_1_n_n.lhsIdx (ix2 r c) ((ValueIdx.contrEquiv1 dot_S16384x128_S128x64_S16384x64_1_0_0_1_n_n 128 rfl rfl).symm k) = ix2 r k := funext fun a => Fin.ext (by
    match a with
    | ⟨0, _⟩ => exact lhsSim_0 _ _
    | ⟨1, _⟩ => exact (lhsSim_1 _ _).trans hk)
  have er : dot_S16384x128_S128x64_S16384x64_1_0_0_1_n_n.rhsIdx (ix2 r c) ((ValueIdx.contrEquiv1 dot_S16384x128_S128x64_S16384x64_1_0_0_1_n_n 128 rfl rfl).symm k) = ix2 k c := funext fun a => Fin.ext (by
    match a with
    | ⟨0, _⟩ => exact (rhsSim_0 _ _).trans hk
    | ⟨1, _⟩ => exact rhsSim_1 _ _)
  rw [el, er]

/-! ### The contraction `Mix` -/

theorem lhsMix_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
theorem lhsMix_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhsMix_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhsMix_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl

/-- Entry `(r, c)` of the product onto a zero accumulator: `∑ k, L (r, k) · R (k, c)`. -/
theorem matmulMix_apply (L : FVec Ideal S16384x64 .f32) (R : FVec Ideal S64x128 .f32) (r : Fin 16384) (c : Fin 128) :
    matmul dot_S16384x64_S64x128_S16384x128_1_0_0_1_n_n none L R (constant S16384x128 .f32 0x00000000#32) (ix2 r c)
      = ∑ k : Fin 64, L (ix2 r k) * R (ix2 k c) := by
  simp only [matmul]
  rw [Ideal.matmul_constant_zero_apply, ← Equiv.sum_comp (ValueIdx.contrEquiv1 dot_S16384x64_S64x128_S16384x128_1_0_0_1_n_n 64 rfl rfl).symm]
  refine Finset.sum_congr rfl fun k _ => ?_
  have hk := ValueIdx.contrEquiv1_symm_val dot_S16384x64_S64x128_S16384x128_1_0_0_1_n_n 64 rfl rfl k
  have el : dot_S16384x64_S64x128_S16384x128_1_0_0_1_n_n.lhsIdx (ix2 r c) ((ValueIdx.contrEquiv1 dot_S16384x64_S64x128_S16384x128_1_0_0_1_n_n 64 rfl rfl).symm k) = ix2 r k := funext fun a => Fin.ext (by
    match a with
    | ⟨0, _⟩ => exact lhsMix_0 _ _
    | ⟨1, _⟩ => exact (lhsMix_1 _ _).trans hk)
  have er : dot_S16384x64_S64x128_S16384x128_1_0_0_1_n_n.rhsIdx (ix2 r c) ((ValueIdx.contrEquiv1 dot_S16384x64_S64x128_S16384x128_1_0_0_1_n_n 64 rfl rfl).symm k) = ix2 k c := funext fun a => Fin.ext (by
    match a with
    | ⟨0, _⟩ => exact (rhsMix_0 _ _).trans hk
    | ⟨1, _⟩ => exact rhsMix_1 _ _)
  rw [el, er]

/-! ## The pieces read at an entry -/

/-- The matrix row that holds token `(b, s)` of the block. -/
def rowOf (b : Fin 4) (s : Fin 4096) : Fin 16384 :=
  ⟨b.val * 4096 + s.val, by have := b.isLt; have := s.isLt; omega⟩

/-- Token `(b, s)` of the block, as a row. -/
def blockRow (x0 : Vec Ideal S4x4096x128 .f32) (b : Fin 4) (s : Fin 4096) : Fin 128 → EReal :=
  fun k => x0 (ix3 b s k)

theorem flat_apply (x0 : Vec Ideal S4x4096x128 .f32) (b : Fin 4) (s : Fin 4096) (k : Fin 128) :
    flat x0 (ix2 (rowOf b s) k) = blockRow x0 b s k :=
  shapeCast_merge_apply x0 shapeCasts_S4x4096x128_S16384x128 b s k (rowOf b s) rfl

/-- A sum over the lanes of one row of a matrix. -/
theorem laneSum_apply {n c : ℕ} (src : FVec Ideal ⟨2, ![n, c]⟩ .f32) (h : (⟨2, ![n, c]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin c, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- The two named constants denote the exact reciprocal of the temperature and the exact square of the norm floor. -/
theorem epsSq_named : Named.named (F := Ideal) κ "eps_squared" (φ := .f32) 0x179ABE15#32 = epsSq :=
  IdealRules.named_const.ideal_named_scalar _ _ _ _ rfl
theorem invTemp_named : Named.named (F := Ideal) κ "inv_temperature" (φ := .f32) 0x41649249#32 = invTemp :=
  IdealRules.named_const.ideal_named_scalar _ _ _ _ rfl

theorem bankV_apply (x1 : Vec Ideal S64x128 .f32) (j : Fin 64) (k : Fin 128) :
    bankV x1 (ix2 j k) = bank (bankRows x1) j k := by
  unfold bankV bank
  refine congrArg (Ideal.div (x1 (ix2 j k))) ?_
  refine (broadcastTo_column_apply _ broadcasts_S64x1_S64x128 j k).trans ?_
  show max (Ideal.sqrt (shapeCast S64x1 _ shapeCasts_S64_S64x1 (ix2 j (0 : Fin 1)))) eps = _
  refine congrArg (fun t => max (Ideal.sqrt t) eps) ?_
  refine (shapeCast_column_apply _ shapeCasts_S64_S64x1 j 0).trans ?_
  exact laneSum_apply _ _ _ _ j

theorem sumSqV_apply (x0 : Vec Ideal S4x4096x128 .f32) (b : Fin 4) (s : Fin 4096) (d : Fin 128) :
    sumSqV x0 (ix2 (rowOf b s) d) = sumSq (blockRow x0 b s) := by
  unfold sumSqV sumSq
  refine (matmulSq_apply _ _ (rowOf b s) d).trans ?_
  refine Finset.sum_congr rfl fun k _ => ?_
  show flat x0 (ix2 (rowOf b s) k) * flat x0 (ix2 (rowOf b s) k) * Ideal.ofBits .f32 0x3F800000#32 = _
  rw [Ideal.ofBits_one_f32, mul_one, flat_apply]

theorem invV_apply (x0 : Vec Ideal S4x4096x128 .f32) (b : Fin 4) (s : Fin 4096) (d : Fin 128) :
    invV x0 (ix2 (rowOf b s) d) = invNorm (blockRow x0 b s) := by
  unfold invV invNorm
  show Ideal.rsqrt (max (sumSqV x0 (ix2 (rowOf b s) d)) (Named.named (F := Ideal) κ "eps_squared" (φ := .f32) 0x179ABE15#32)) = _
  rw [sumSqV_apply, epsSq_named]

theorem rawV_apply (x0 : Vec Ideal S4x4096x128 .f32) (x1 : Vec Ideal S64x128 .f32) (b : Fin 4) (s : Fin 4096) (j : Fin 64) :
    rawV x0 x1 (ix2 (rowOf b s) j) = rawSim (blockRow x0 b s) (bankRows x1) j := by
  unfold rawV rawSim
  refine (matmulSim_apply _ _ (rowOf b s) j).trans ?_
  refine Finset.sum_congr rfl fun k _ => ?_
  rw [flat_apply]
  refine congrArg (blockRow x0 b s k * ·) ?_
  show transpose S128x64 [1, 0] (bankV x1) transposes_S64x128_p1_0_S128x64 (ix2 k j) * Named.named (F := Ideal) κ "inv_temperature" (φ := .f32) 0x41649249#32 = _
  rw [transpose_ix2_apply, invTemp_named, bankV_apply]

theorem expV_apply (x0 : Vec Ideal S4x4096x128 .f32) (x1 : Vec Ideal S64x128 .f32) (b : Fin 4) (s : Fin 4096) (j : Fin 64) :
    expV x0 x1 (ix2 (rowOf b s) j) = wK (blockRow x0 b s) (bankRows x1) j := by
  unfold expV wK
  show Ideal.exp (rawV x0 x1 (ix2 (rowOf b s) j) * extractStridedSlice S16384x64 ![0, 0] (invV x0) slices_S16384x128_o0_0_S16384x64 (ix2 (rowOf b s) j)
      - Named.named (F := Ideal) κ "inv_temperature" (φ := .f32) 0x41649249#32) = _
  rw [slice2_axis1_apply 0 (invV x0) slices_S16384x128_o0_0_S16384x64 (rowOf b s) j ⟨j.val, by have := j.isLt; omega⟩ (Nat.zero_add _).symm,
    rawV_apply, invV_apply, invTemp_named]

theorem attnV_apply (x0 : Vec Ideal S4x4096x128 .f32) (x1 : Vec Ideal S64x128 .f32) (b : Fin 4) (s : Fin 4096) (j : Fin 64) :
    attnV x0 x1 (ix2 (rowOf b s) j)
      = Ideal.div (wK (blockRow x0 b s) (bankRows x1) j) (∑ i : Fin 64, wK (blockRow x0 b s) (bankRows x1) i) := by
  unfold attnV
  refine (divf_apply _ _ _).trans ?_
  refine congrArg₂ Ideal.div (expV_apply x0 x1 b s j) ?_
  refine (broadcastTo_column_apply _ broadcasts_S16384x1_S16384x64 (rowOf b s) j).trans ?_
  refine (shapeCast_column_apply _ shapeCasts_S16384_S16384x1 (rowOf b s) 0).trans ?_
  refine (laneSum_apply _ _ _ _ (rowOf b s)).trans ?_
  exact Finset.sum_congr rfl fun i _ => expV_apply x0 x1 b s i

/-- THE STORED VALUE AT AN ENTRY: lane `d` of token `(b, s)` is the row function of that token's row and the bank. -/
theorem pay_apply (x0 : Vec Ideal S4x4096x128 .f32) (x1 : Vec Ideal S64x128 .f32) (b : Fin 4) (s : Fin 4096) (d : Fin 128) :
    k0_pay1 (F := Ideal) x0 x1 (ix3 b s d) = rowK (blockRow x0 b s) (bankRows x1) d := by
  rw [pay_eq]
  refine (shapeCast_split_apply _ shapeCasts_S16384x128_S4x4096x128 b s d (rowOf b s) rfl).trans ?_
  show flat x0 (ix2 (rowOf b s) d) * invV x0 (ix2 (rowOf b s) d)
      + matmul dot_S16384x64_S64x128_S16384x128_1_0_0_1_n_n none (attnV x0 x1) (bankV x1) (constant S16384x128 .f32 0x00000000#32) (ix2 (rowOf b s) d) = _
  rw [matmulMix_apply, flat_apply, invV_apply]
  unfold rowK
  refine congrArg (blockRow x0 b s d * invNorm (blockRow x0 b s) + ·) ?_
  exact Finset.sum_congr rfl fun j _ => by rw [attnV_apply, bankV_apply]

end Cert.KernelPay

end
-- ==== Proof.KernelWhole.lean ====
/-
  From the blocks the grid points write back to the whole result array.

  The grid has four points. Point `t` stages batches `4t … 4t + 3` of the feature tensor (all
  4096 tokens, all 128 lanes) and the whole bank, and writes back the same batches of the result.
  So entry `(b, s, d)` of the block at point `t` is entry `(4t + b, s, d)` of the array, on the input
  side and on the output side alike, and the four output blocks tile the array: batch `B` lies in
  the block of point `B / 4`. With the body's stored value read at an entry, what point `t` writes
  back is block `t` of the one whole-array function `Cert.EmaRow.whole`, and the array ends
  holding that function of the two argument arrays.
-/
import proofs.«131216_g85598698209303_cont_9to1_m_192_15_alg».proof.Proof.Gen.KernelIdeal.Value
import proofs.«131216_g85598698209303_cont_9to1_m_192_15_alg».proof.Proof.KernelPay

set_option maxRecDepth 16384

noncomputable section

namespace Cert.KernelWhole

open Cert.KernelIdeal Cert.KernelIdeal.Gen Idealize.ShloMosaic Idealize.ShloMosaic.TcCoe Idealize.SL.Sem
open Idealize.ShloMosaic.ValueIdx Cert.EmaRow Cert.KernelPay
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The feature tensor and the bank as the region finds them, and a point's two input blocks. -/
abbrev xarr (c : Dev nD) : Vec Ideal S16x4096x128 .f32 := V m c main_arg0
abbrev marr (c : Dev nD) : Vec Ideal S64x128 .f32 := V m c main_arg1
abbrev xblk (c : Dev nD) (t : Fin cfg0.N) : Vec Ideal S4x4096x128 .f32 := iblk m c 0 t
abbrev mblk (c : Dev nD) (t : Fin cfg0.N) : Vec Ideal S64x128 .f32 := iblk m c 1 t

/-- The printed index maps, decided over the four points: the feature and result windows are at batch
    block `t`, the bank's window always at its one block. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 4 := Nat.lt_of_lt_of_eq t.isLt N_0

/-- The batch of the array that batch `b` of point `t`'s block is. -/
def batchOf (t : Fin cfg0.N) (b : Fin 4) : Fin 16 :=
  ⟨t.val * 4 + b.val, by have := point_lt t; have := b.isLt; omega⟩

/-- Entry `(b, s, d)` of the feature block at point `t` is entry `(4t + b, s, d)` of the tensor. -/
theorem xblk_apply (c : Dev nD) (t : Fin cfg0.N) (b : Fin 4) (s : Fin 4096) (d : Fin 128) :
    xblk m c t (ix3 b s d) = xarr m c (ix3 (batchOf t b) s d) := by
  obtain ⟨e0, e1, e2, -⟩ := index_facts t
  show iblk m c 0 t (ix3 b s d) = V m c main_arg0 (ix3 (batchOf t b) s d)
  unfold iblk
  rw [View.read_apply]
  show V m c main_arg0 _ = V m c main_arg0 _
  congr 1
  funext a
  apply Fin.ext
  match a with
  | ⟨0, _⟩ => show win0_0.index t (0 : Fin 3) * 4 + 1 * b.val = t.val * 4 + b.val; rw [e0]; omega
  | ⟨1, _⟩ => show win0_0.index t (1 : Fin 3) * 4096 + 1 * s.val = s.val; rw [e1]; omega
  | ⟨2, _⟩ => show win0_0.index t (2 : Fin 3) * 128 + 1 * d.val = d.val; rw [e2]; omega

/-- The bank's block at every point is the whole bank. -/
theorem mblk_eq (c : Dev nD) (t : Fin cfg0.N) : mblk m c t = marr m c := by
  obtain ⟨-, -, -, e0, e1, -⟩ := index_facts t
  funext y
  show iblk m c 1 t y = V m c main_arg1 y
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- WHAT POINT `t` WRITES BACK is block `t` of the whole-array function of the argument arrays. -/
theorem flushed_eq (c : Dev nD) (t : Fin cfg0.N) :
    (dats m 0 c).flushed 2 t = ((cfg0.win 2).blk t).view.read (Elt Ideal) (whole (xarr m c) (marr m c)) := by
  rw [Cert.KernelIdeal.Value.flushed2]
  unfold out0_2
  rw [View.canon_unit_zero zero3]
  simp only [View.ld_unit_zero (S := S4x4096x128) zero3, View.ld_unit_zero (S := S64x128) zero2]
  obtain ⟨-, -, -, -, -, e0, e1, e2⟩ := index_facts t
  funext y
  obtain ⟨b, s, d, rfl⟩ : ∃ (b : Fin 4) (s : Fin 4096) (d : Fin 128), y = ix3 b s d := ⟨y 0, y 1, y 2, eq_ix3 y⟩
  show k0_pay1 (F := Ideal) (xblk m c t) (mblk m c t) (ix3 b s d) = whole (xarr m c) (marr m c) (((cfg0.win 2).blk t).view.emb (ix3 b s d))
  have hemb : ((cfg0.win 2).blk t).view.emb (ix3 b s d) = ix3 (batchOf t b) s d := by
    funext a
    apply Fin.ext
    match a with
    | ⟨0, _⟩ => show win0_2.index t (0 : Fin 3) * 4 + 1 * b.val = t.val * 4 + b.val; rw [e0]; omega
    | ⟨1, _⟩ => show win0_2.index t (1 : Fin 3) * 4096 + 1 * s.val = s.val; rw [e1]; omega
    | ⟨2, _⟩ => show win0_2.index t (2 : Fin 3) * 128 + 1 * d.val = d.val; rw [e2]; omega
  rw [hemb, whole_ix3, pay_apply, mblk_eq]
  unfold wholeAt
  refine congrArg (fun r => rowK r (bankRows (marr m c)) d) ?_
  funext k
  exact xblk_apply m c t b s k

/-- An index of the array is in point `t`'s block iff each coordinate is in the block's range on its axis. -/
theorem mem_blk (t : Fin cfg0.N) (i : S16x4096x128.Idx) :
    i ∈ ((cfg0.win 2).blk t).view.set ↔ ∀ a : Fin 3, win0_2.index t a * S4x4096x128.size a ≤ (i a).val ∧ (i a).val < win0_2.index t a * S4x4096x128.size a + S4x4096x128.size a := by
  show i ∈ ((View.whole main_v0).slice (win0_2.rect t)).set ↔ _
  rw [View.set_slice_whole, Rect.mem_set_unit]
  exact Iff.rfl

/-- Every index of the array is in the block of the point its batch divided by four names. -/
theorem cover (i : S16x4096x128.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 128 := (i 2).isLt
  obtain ⟨t, ht⟩ : ∃ t : Fin cfg0.N, t.val = (i 0).val / 4 :=
    ⟨⟨(i 0).val / 4, by rw [show cfg0.N = 4 from N_0]; omega⟩, rfl⟩
  obtain ⟨-, -, -, -, -, e0, e1, e2⟩ := index_facts t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; rw [e0, ht]; omega
  | ⟨1, _⟩ => show win0_2.index t (1 : Fin 3) * 4096 ≤ (i 1).val ∧ (i 1).val < win0_2.index t (1 : Fin 3) * 4096 + 4096; rw [e1]; omega
  | ⟨2, _⟩ => show win0_2.index t (2 : Fin 3) * 128 ≤ (i 2).val ∧ (i 2).val < win0_2.index t (2 : Fin 3) * 128 + 128; rw [e2]; omega

/-- THE ARRAY after the run: the whole-array function of the two argument arrays. -/
theorem final (c : Dev nD) : (dats m 0 c).arrAt 2 cfg0.N = whole (xarr m c) (marr m c) :=
  (dats m 0 c).arrAt_eq_of_cover 2 (whole (xarr m c) (marr m c)) (fun t _ => flushed_eq m c t) cover

/-- The run, read: the result array at that function of the arguments as launched, the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelWhole

end
-- ==== Proof.RefRead.lean ====
/-
  The reference program's result, read at one index, is the row function `rowR` of the specification.

  The reference works on the feature tensor `[16, 4096, 128]` flattened to `[65536, 128]`: token `(b, s)` is the
  flat row `b · 4096 + s`. Stage by stage, each read at explicit coordinates:
  * the sum of squares of the token's row, then the row divided by `max (√(∑ x²)) eps`: the unit vector `unit`;
  * every bank row divided by its own floored norm: `bank`; its transpose reads the same entry with the
    coordinates exchanged;
  * the products of the unit vector with the normalised bank rows, summed over the 128 lanes and divided by the
    temperature: the similarities `sim`;
  * the maximum of the 64 similarities, folded from `-∞` and joined with `-∞` once more: `rowMax`;
  * `exp (sim − rowMax)`: the weights `wR`; their sum over the 64 slots; each weight divided by that sum;
  * the weighted mean of the normalised bank rows, added to the unit vector: `rowR`.
  Each host sum starts from the zero word, which is the extended real `0`, so `0 + ∑ = ∑`. The constants
  `eps`, `temp`, `negInf` are by definition the extended reals the program's literal words encode.
  The index equations say where each layout operation reads: a broadcast drops or pins the unit axis, the
  transpose exchanges the two axes, the two reshapes pass through `b · 4096 + s` (division and remainder by
  128 and 4096 on bounded coordinates), and a contraction reads row `r` of its left operand and column `j` of its
  right operand at the summed coordinate.
-/
import proofs.«131216_g85598698209303_cont_9to1_m_192_15_alg».proof.Proof.Gen.ReferenceIdeal.Read
import proofs.«131216_g85598698209303_cont_9to1_m_192_15_alg».proof.Proof.ArraySpec
import Idealize.ShloMosaic.Lib.ValueIdx
import Idealize.ShloMosaic.Lib.Pipeline.Value
import Idealize.ShloMosaic.PureOps.Ideal.Laws
import Idealize.ShloMosaic.PureOps.Reduce

noncomputable section

namespace Cert.RefRead

open Idealize.ShloMosaic Idealize.ShloMosaic.ValueIdx Cert.ReferenceIdeal Cert.ReferenceIdeal.Read Cert.EmaRow

/-- The flat row of token `(b, s)`: `b · 4096 + s`. -/
def row (b : Fin 16) (s : Fin 4096) : Fin 65536 := ⟨b.val * 4096 + s.val, by have := b.isLt; have := s.isLt; omega⟩

/-! ## Index equations at explicit coordinates -/

theorem idx1 (b : Fin 16) (s : Fin 4096) (k : Fin 128) : idx_main_v1 (ix2 b s) k = ix3 b s k := by
  funext a; apply Fin.ext; match a with | ⟨0, _⟩ => rfl | ⟨1, _⟩ => rfl | ⟨2, _⟩ => rfl

theorem idx2 (b : Fin 16) (s : Fin 4096) (z : Fin 1) : idx_main_v2 (ix3 b s z) = ix2 b s := by
  funext a; apply Fin.ext; match a with | ⟨0, _⟩ => rfl | ⟨1, _⟩ => rfl

theorem idx6 (b : Fin 16) (s : Fin 4096) (k : Fin 128) : idx_main_v6 (ix3 b s k) = ix3 b s (0 : Fin 1) := by
  funext a; apply Fin.ext; match a with | ⟨0, _⟩ => rfl | ⟨1, _⟩ => rfl | ⟨2, _⟩ => rfl

theorem idx8 (b : Fin 16) (s : Fin 4096) (k : Fin 128) : idx_main_v8 (ix2 (row b s) k) = ix3 b s k := by
  funext a; apply Fin.ext
  have hb := b.isLt; have hs := s.isLt; have hk := k.isLt
  match a with
  | ⟨0, _⟩ => show ((b.val * 4096 + s.val) * 128 + k.val) / 524288 = b.val; omega
  | ⟨1, _⟩ => show ((b.val * 4096 + s.val) * 128 + k.val) / 128 % 4096 = s.val; omega
  | ⟨2, _⟩ => show ((b.val * 4096 + s.val) * 128 + k.val) % 128 = k.val; omega

theorem idx34 (b : Fin 16) (s : Fin 4096) (d : Fin 128) : idx_main_v34 (ix3 b s d) = ix2 (row b s) d := by
  funext a; apply Fin.ext
  have hb := b.isLt; have hs := s.isLt; have hd := d.isLt
  match a with
  | ⟨0, _⟩ => show ((b.val * 4096 + s.val) * 128 + d.val) / 128 = b.val * 4096 + s.val; omega
  | ⟨1, _⟩ => show ((b.val * 4096 + s.val) * 128 + d.val) % 128 = d.val; omega

/-! ## The unit vector of the token's row -/

theorem sumSq_apply (X : (⟨S16x4096x128, .f32⟩ : BufTy).Contents (Elt Ideal)) (b : Fin 16) (s : Fin 4096) :
    val_main_v1 (F := Ideal) X (ix2 b s) = sumSq (tokenRow X b s) := by
  rw [val_main_v1_apply, val_main_cst_apply]
  simp only [idx1, val_main_v0_apply, Ideal.ofBits_def, Ideal.mulf_def, Ideal.ofBits_zero_f32, zero_add]
  rfl

theorem norm_apply (X : (⟨S16x4096x128, .f32⟩ : BufTy).Contents (Elt Ideal)) (b : Fin 16) (s : Fin 4096) :
    val_main_v5 (F := Ideal) X (ix3 b s (0 : Fin 1)) = max (Ideal.sqrt (sumSq (tokenRow X b s))) eps := by
  rw [val_main_v5_apply, val_main_v3_apply, val_main_v2_apply, val_main_v4_apply, val_main_cst_0_apply, idx2, sumSq_apply]
  rfl

theorem unit_apply (X : (⟨S16x4096x128, .f32⟩ : BufTy).Contents (Elt Ideal)) (b : Fin 16) (s : Fin 4096) (k : Fin 128) :
    val_main_v7 (F := Ideal) X (ix3 b s k) = unit (tokenRow X b s) k := by
  rw [val_main_v7_apply, val_main_v6_apply, idx6, norm_apply]
  rfl

theorem v8_apply (X : (⟨S16x4096x128, .f32⟩ : BufTy).Contents (Elt Ideal)) (b : Fin 16) (s : Fin 4096) (k : Fin 128) :
    val_main_v8 (F := Ideal) X (ix2 (row b s) k) = unit (tokenRow X b s) k := by
  rw [val_main_v8_apply, idx8, unit_apply]

/-! ## The normalised bank -/

theorem idx10 (j : Fin 64) (k : Fin 128) : idx_main_v10 (ix1 j) k = ix2 j k := by
  funext a; apply Fin.ext; match a with | ⟨0, _⟩ => rfl | ⟨1, _⟩ => rfl

theorem idx11 (j : Fin 64) (z : Fin 1) : idx_main_v11 (ix2 j z) = ix1 j := by
  funext a; apply Fin.ext; match a with | ⟨0, _⟩ => rfl

theorem idx15 (j : Fin 64) (k : Fin 128) : idx_main_v15 (ix2 j k) = ix2 j (0 : Fin 1) := by
  funext a; apply Fin.ext; match a with | ⟨0, _⟩ => rfl | ⟨1, _⟩ => rfl

theorem idx17 (k : Fin 128) (j : Fin 64) : idx_main_v17 (ix2 k j) = ix2 j k := by
  funext a; apply Fin.ext; match a with | ⟨0, _⟩ => rfl | ⟨1, _⟩ => rfl

theorem bankSumSq_apply (MB : (⟨S64x128, .f32⟩ : BufTy).Contents (Elt Ideal)) (j : Fin 64) :
    val_main_v10 (F := Ideal) MB (ix1 j) = ∑ l : Fin 128, bankRows MB j l * bankRows MB j l := by
  rw [val_main_v10_apply, val_main_cst_1_apply]
  simp only [idx10, val_main_v9_apply, Ideal.ofBits_def, Ideal.mulf_def, Ideal.ofBits_zero_f32, zero_add]
  rfl

theorem bankNorm_apply (MB : (⟨S64x128, .f32⟩ : BufTy).Contents (Elt Ideal)) (j : Fin 64) :
    val_main_v14 (F := Ideal) MB (ix2 j (0 : Fin 1))
      = max (Ideal.sqrt (∑ l : Fin 128, bankRows MB j l * bankRows MB j l)) eps := by
  rw [val_main_v14_apply, val_main_v12_apply, val_main_v11_apply, val_main_v13_apply, val_main_cst_2_apply, idx11,
    bankSumSq_apply]
  rfl

theorem bank_apply (MB : (⟨S64x128, .f32⟩ : BufTy).Contents (Elt Ideal)) (j : Fin 64) (k : Fin 128) :
    val_main_v16 (F := Ideal) MB (ix2 j k) = bank (bankRows MB) j k := by
  rw [val_main_v16_apply, val_main_v15_apply, idx15, bankNorm_apply]
  rfl

theorem v17_apply (MB : (⟨S64x128, .f32⟩ : BufTy).Contents (Elt Ideal)) (k : Fin 128) (j : Fin 64) :
    val_main_v17 (F := Ideal) MB (ix2 k j) = bank (bankRows MB) j k := by
  rw [val_main_v17_apply, idx17, bank_apply]

/-! ## The similarities -/

theorem lidx18 (r : Fin 65536) (j : Fin 64) (k : Fin 128) : lidx_main_v18 (ix2 r j) k = ix2 r k := by
  funext a; apply Fin.ext; match a with | ⟨0, _⟩ => rfl | ⟨1, _⟩ => rfl

theorem ridx18 (r : Fin 65536) (j : Fin 64) (k : Fin 128) : ridx_main_v18 (ix2 r j) k = ix2 k j := by
  funext a; apply Fin.ext; match a with | ⟨0, _⟩ => rfl | ⟨1, _⟩ => rfl

theorem sim_apply (X : (⟨S16x4096x128, .f32⟩ : BufTy).Contents (Elt Ideal)) (MB : (⟨S64x128, .f32⟩ : BufTy).Contents (Elt Ideal))
    (b : Fin 16) (s : Fin 4096) (j : Fin 64) :
    val_main_v20 (F := Ideal) X MB (ix2 (row b s) j) = sim (tokenRow X b s) (bankRows MB) j := by
  rw [val_main_v20_apply, val_main_v18_apply, val_main_v19_apply, val_main_cst_3_apply]
  simp only [lidx18, ridx18, v8_apply, v17_apply]
  rfl

/-! ## The row maximum -/

theorem lift21 (h : S65536x64.Reduces [1] S65536) (r : Fin 65536) (j : Fin 64) :
    h.lift (ix1 r) j = ix2 r j := by
  funext a; apply Fin.ext; match a with | ⟨0, _⟩ => rfl | ⟨1, _⟩ => rfl

theorem max_apply (X : (⟨S16x4096x128, .f32⟩ : BufTy).Contents (Elt Ideal)) (MB : (⟨S64x128, .f32⟩ : BufTy).Contents (Elt Ideal))
    (b : Fin 16) (s : Fin 4096) :
    val_main_v23 (F := Ideal) X MB (ix1 (row b s)) = rowMax (tokenRow X b s) (bankRows MB) := by
  have h : S65536x64.Reduces [1] S65536 := by decide
  rw [val_main_v23_apply, val_main_v22_apply, val_main_cst_5_apply]
  unfold val_main_v21
  rw [Host.reduce_eq_fold_single FloatOps.maximumf _ _ Gen.reducesTo_S65536x64_S65536_d1 h Gen.h_S_, val_main_cst_4_apply]
  have e : (val_main_v20 (F := Ideal) X MB ∘ h.lift (ix1 (row b s)))
      = fun j : Fin 64 => sim (tokenRow X b s) (bankRows MB) j := by
    funext j
    exact (congrArg (val_main_v20 (F := Ideal) X MB) (lift21 h (row b s) j)).trans (sim_apply X MB b s j)
  rw [e]
  rfl

/-! ## The softmax weights -/

theorem idx24 (r : Fin 65536) (z : Fin 1) : idx_main_v24 (ix2 r z) = ix1 r := by
  funext a; apply Fin.ext; match a with | ⟨0, _⟩ => rfl

theorem idx25 (r : Fin 65536) (j : Fin 64) : idx_main_v25 (ix2 r j) = ix2 r (0 : Fin 1) := by
  funext a; apply Fin.ext; match a with | ⟨0, _⟩ => rfl | ⟨1, _⟩ => rfl

theorem w_apply (X : (⟨S16x4096x128, .f32⟩ : BufTy).Contents (Elt Ideal)) (MB : (⟨S64x128, .f32⟩ : BufTy).Contents (Elt Ideal))
    (b : Fin 16) (s : Fin 4096) (j : Fin 64) :
    val_main_v27 (F := Ideal) X MB (ix2 (row b s) j)
      = wR (tokenRow X b s) (bankRows MB) (rowMax (tokenRow X b s) (bankRows MB)) j := by
  rw [val_main_v27_apply, val_main_v26_apply, val_main_v25_apply, idx25, val_main_v24_apply, idx24, max_apply, sim_apply]
  rfl

theorem idx28 (r : Fin 65536) (k : Fin 64) : idx_main_v28 (ix1 r) k = ix2 r k := by
  funext a; apply Fin.ext; match a with | ⟨0, _⟩ => rfl | ⟨1, _⟩ => rfl

theorem wsum_apply (X : (⟨S16x4096x128, .f32⟩ : BufTy).Contents (Elt Ideal)) (MB : (⟨S64x128, .f32⟩ : BufTy).Contents (Elt Ideal))
    (b : Fin 16) (s : Fin 4096) :
    val_main_v28 (F := Ideal) X MB (ix1 (row b s))
      = ∑ i : Fin 64, wR (tokenRow X b s) (bankRows MB) (rowMax (tokenRow X b s) (bankRows MB)) i := by
  rw [val_main_v28_apply, val_main_cst_6_apply]
  simp only [idx28, w_apply, Ideal.ofBits_def, Ideal.ofBits_zero_f32, zero_add]

theorem idx29 (r : Fin 65536) (z : Fin 1) : idx_main_v29 (ix2 r z) = ix1 r := by
  funext a; apply Fin.ext; match a with | ⟨0, _⟩ => rfl

theorem idx30 (r : Fin 65536) (j : Fin 64) : idx_main_v30 (ix2 r j) = ix2 r (0 : Fin 1) := by
  funext a; apply Fin.ext; match a with | ⟨0, _⟩ => rfl | ⟨1, _⟩ => rfl

theorem p_apply (X : (⟨S16x4096x128, .f32⟩ : BufTy).Contents (Elt Ideal)) (MB : (⟨S64x128, .f32⟩ : BufTy).Contents (Elt Ideal))
    (b : Fin 16) (s : Fin 4096) (j : Fin 64) :
    val_main_v31 (F := Ideal) X MB (ix2 (row b s) j)
      = Ideal.div (wR (tokenRow X b s) (bankRows MB) (rowMax (tokenRow X b s) (bankRows MB)) j)
          (∑ i : Fin 64, wR (tokenRow X b s) (bankRows MB) (rowMax (tokenRow X b s) (bankRows MB)) i) := by
  rw [val_main_v31_apply, val_main_v30_apply, idx30, val_main_v29_apply, idx29, wsum_apply, w_apply]
  rfl

/-! ## The weighted mean of the bank rows, and the result -/

theorem lidx32 (r : Fin 65536) (d : Fin 128) (k : Fin 64) : lidx_main_v32 (ix2 r d) k = ix2 r k := by
  funext a; apply Fin.ext; match a with | ⟨0, _⟩ => rfl | ⟨1, _⟩ => rfl

theorem ridx32 (r : Fin 65536) (d : Fin 128) (k : Fin 64) : ridx_main_v32 (ix2 r d) k = ix2 k d := by
  funext a; apply Fin.ext; match a with | ⟨0, _⟩ => rfl | ⟨1, _⟩ => rfl

theorem mix_apply (X : (⟨S16x4096x128, .f32⟩ : BufTy).Contents (Elt Ideal)) (MB : (⟨S64x128, .f32⟩ : BufTy).Contents (Elt Ideal))
    (b : Fin 16) (s : Fin 4096) (d : Fin 128) :
    val_main_v32 (F := Ideal) X MB (ix2 (row b s) d)
      = ∑ j : Fin 64, Ideal.div (wR (tokenRow X b s) (bankRows MB) (rowMax (tokenRow X b s) (bankRows MB)) j)
          (∑ i : Fin 64, wR (tokenRow X b s) (bankRows MB) (rowMax (tokenRow X b s) (bankRows MB)) i)
          * bank (bankRows MB) j d := by
  rw [val_main_v32_apply]
  simp only [lidx32, ridx32, p_apply, bank_apply]

theorem result_apply (X : (⟨S16x4096x128, .f32⟩ : BufTy).Contents (Elt Ideal)) (MB : (⟨S64x128, .f32⟩ : BufTy).Contents (Elt Ideal))
    (b : Fin 16) (s : Fin 4096) (d : Fin 128) :
    Cert.ReferenceIdeal.Read.val_main_v34 (F := Ideal) X MB (ix3 b s d)
      = Cert.EmaRow.rowR (Cert.EmaRow.tokenRow X b s) (Cert.EmaRow.bankRows MB)
          (Cert.EmaRow.rowMax (Cert.EmaRow.tokenRow X b s) (Cert.EmaRow.bankRows MB)) d := by
  rw [val_main_v34_apply, idx34, val_main_v33_apply, v8_apply, mix_apply]
  rfl

end Cert.RefRead

end
-- ==== Proof.RowMath.lean ====
/-
  The two spellings of the row function agree on finite real inputs.

  Over finite reals every quantity of `RowSpec` is a real number, and the identity is one between reals.
  * `eps = 2305843 / 2^61 > 0`, `temp = 9395241 / 2^27 > 0`, `epsSq = eps²`, `invTemp = 1 / temp`
    exactly, and the starting value of the running maximum is `-∞`.
  * A division by a nonzero real is the product with its reciprocal; the larger of two coerced reals is the
    coerced larger; a finite sum of coerced reals is the coerced sum.
  * With `s = ∑ x²  ≥ 0`, the square root is monotone and `√(eps²) = eps`, so
    `√(max s eps²) = max (√s) eps =: n > 0`; hence `x · (max s eps²)^(-1/2) = x / n`, the unit vector.
  * The raw similarity `∑ x · (bank · (1/temp))` times `1/n` is `(∑ (x/n) · bank) · (1/temp)`, the
    similarity of the unit vector divided by the temperature.
  * The running maximum of the 64 real similarities started from `-∞` is a real number `M`: it is at
    least the first similarity and below `+∞`.
  * A softmax weight does not depend on the shift: `exp (s_j - a) = exp (s_j - b) · exp (b - a)`, the
    common positive factor cancels between numerator and denominator. So the weights shifted by `M` and
    by `1/temp` agree, and so do the weighted sums of the bank rows.
-/
import proofs.«131216_g85598698209303_cont_9to1_m_192_15_alg».proof.Proof.RowSpec
import Mathlib.Data.EReal.Basic
import Mathlib.Data.EReal.Operations
import Mathlib.Data.EReal.Inv
import Mathlib.Analysis.SpecialFunctions.Exp
import Mathlib.Analysis.Real.Sqrt
import Mathlib.Algebra.BigOperators.Field
import Mathlib.Data.Finset.Fold

noncomputable section

namespace Cert.EmaRow

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  Monotone.map_max (fun _ _ h => EReal.coe_le_coe_iff.2 h)

/-- `eps` as a real. -/
def epsR : ℝ := 2305843 / 2 ^ 61
/-- `temp` as a real. -/
def tempR : ℝ := 9395241 / 2 ^ 27

theorem eps_eq : eps = ((epsR : ℝ) : EReal) := by
  unfold eps epsR
  simp [Ideal.ofBits, Ideal.ieee, -EReal.coe_mul]; norm_num

theorem temp_eq : temp = ((tempR : ℝ) : EReal) := by
  unfold temp tempR
  simp [Ideal.ofBits, Ideal.ieee, -EReal.coe_mul]; norm_num

theorem negInf_eq : negInf = ⊥ := by
  unfold negInf
  simp [Ideal.ofBits, Ideal.ieee]

theorem epsR_pos : 0 < epsR := by unfold epsR; norm_num
theorem tempR_pos : 0 < tempR := by unfold tempR; norm_num

theorem epsSq_eq : epsSq = ((epsR ^ 2 : ℝ) : EReal) := by
  unfold epsSq epsR; congr 1; norm_num

theorem invTemp_eq : invTemp = ((1 / tempR : ℝ) : EReal) := by
  unfold invTemp tempR; congr 1; norm_num

/-! ## The real numbers behind the extended-real definitions -/

/-- The floored Euclidean norm of bank row `j`. -/
def bnormR (mbr : Fin 64 → Fin 128 → ℝ) (j : Fin 64) : ℝ :=
  max (√(∑ l : Fin 128, mbr j l * mbr j l)) epsR
/-- Entry `k` of the normalised bank row `j`. -/
def bankR (mbr : Fin 64 → Fin 128 → ℝ) (j : Fin 64) (k : Fin 128) : ℝ := mbr j k * (1 / bnormR mbr j)
/-- The sum of squares of the row. -/
def sR (xr : Fin 128 → ℝ) : ℝ := ∑ k : Fin 128, xr k * xr k
/-- The floored Euclidean norm of the row. -/
def nR (xr : Fin 128 → ℝ) : ℝ := max (√(sR xr)) epsR
/-- Entry `k` of the row's unit vector. -/
def unitR (xr : Fin 128 → ℝ) (k : Fin 128) : ℝ := xr k * (1 / nR xr)
/-- The similarity with slot `j`, divided by the temperature. -/
def simR (xr : Fin 128 → ℝ) (mbr : Fin 64 → Fin 128 → ℝ) (j : Fin 64) : ℝ :=
  (∑ k : Fin 128, unitR xr k * bankR mbr j k) * (1 / tempR)
/-- The unnormalised similarity with slot `j`. -/
def rawR (xr : Fin 128 → ℝ) (mbr : Fin 64 → Fin 128 → ℝ) (j : Fin 64) : ℝ :=
  ∑ k : Fin 128, xr k * (bankR mbr j k * (1 / tempR))

theorem sum_sq_nonneg {n : ℕ} (f : Fin n → ℝ) : 0 ≤ ∑ k : Fin n, f k * f k :=
  Finset.sum_nonneg (fun k _ => mul_self_nonneg (f k))

theorem sR_nonneg (xr : Fin 128 → ℝ) : 0 ≤ sR xr := sum_sq_nonneg xr

theorem bnormR_pos (mbr : Fin 64 → Fin 128 → ℝ) (j : Fin 64) : 0 < bnormR mbr j :=
  lt_of_lt_of_le epsR_pos (le_max_right _ _)

theorem nR_pos (xr : Fin 128 → ℝ) : 0 < nR xr :=
  lt_of_lt_of_le epsR_pos (le_max_right _ _)

/-- The square root of a sum of squares of reals is the real square root. -/
theorem sqrt_sum_coe (f : Fin 128 → ℝ) :
    Ideal.sqrt (∑ l : Fin 128, (f l : EReal) * (f l : EReal))
      = ((√(∑ l : Fin 128, f l * f l) : ℝ) : EReal) := by
  have h : (∑ l : Fin 128, (f l : EReal) * (f l : EReal)) = ((∑ l : Fin 128, f l * f l : ℝ) : EReal) := by
    rw [coe_sum]; simp only [EReal.coe_mul]
  rw [h, Ideal.sqrt_coe, if_neg (not_lt.2 (sum_sq_nonneg f))]

section Coe

variable {x : Fin 128 → EReal} {mb : Fin 64 → Fin 128 → EReal}
  {xr : Fin 128 → ℝ} {mbr : Fin 64 → Fin 128 → ℝ}

theorem bank_coe (hmb : ∀ j k, mb j k = (mbr j k : EReal)) (j : Fin 64) (k : Fin 128) :
    bank mb j k = ((bankR mbr j k : ℝ) : EReal) := by
  unfold bank bankR bnormR
  simp only [hmb]
  rw [sqrt_sum_coe (mbr j), eps_eq, ← coe_max,
    Ideal.div_coe (ne_of_gt (lt_of_lt_of_le epsR_pos (le_max_right _ _))), ← EReal.coe_mul]

theorem sumSq_coe (hx : ∀ k, x k = (xr k : EReal)) : sumSq x = ((sR xr : ℝ) : EReal) := by
  unfold sumSq sR
  simp only [hx]
  rw [coe_sum]; simp only [EReal.coe_mul]

theorem unit_coe (hx : ∀ k, x k = (xr k : EReal)) (k : Fin 128) :
    unit x k = ((unitR xr k : ℝ) : EReal) := by
  unfold unit unitR nR
  rw [sumSq_coe hx, Ideal.sqrt_coe, if_neg (not_lt.2 (sR_nonneg xr)), eps_eq, ← coe_max,
    Ideal.div_coe (ne_of_gt (lt_of_lt_of_le epsR_pos (le_max_right _ _))), hx, ← EReal.coe_mul]

/-- The square root of the floored sum of squares is the floored norm. -/
theorem sqrt_max_eq (xr : Fin 128 → ℝ) : √(max (sR xr) (epsR ^ 2)) = nR xr := by
  unfold nR
  rw [Real.sqrt_monotone.map_max, Real.sqrt_sq epsR_pos.le]

theorem invNorm_coe (hx : ∀ k, x k = (xr k : EReal)) : invNorm x = ((1 / nR xr : ℝ) : EReal) := by
  unfold invNorm
  have hpos : 0 < max (sR xr) (epsR ^ 2) := lt_of_lt_of_le (pow_pos epsR_pos 2) (le_max_right _ _)
  rw [sumSq_coe hx, epsSq_eq, ← coe_max, Ideal.rsqrt_coe, if_neg (not_lt.2 hpos.le),
    if_neg (ne_of_gt hpos), sqrt_max_eq, one_div]

theorem sim_coe (hx : ∀ k, x k = (xr k : EReal)) (hmb : ∀ j k, mb j k = (mbr j k : EReal)) (j : Fin 64) :
    sim x mb j = ((simR xr mbr j : ℝ) : EReal) := by
  unfold sim simR
  simp only [unit_coe hx, bank_coe hmb, ← EReal.coe_mul, ← coe_sum]
  rw [temp_eq, Ideal.div_coe (ne_of_gt tempR_pos), ← EReal.coe_mul]

theorem rawSim_coe (hx : ∀ k, x k = (xr k : EReal)) (hmb : ∀ j k, mb j k = (mbr j k : EReal)) (j : Fin 64) :
    rawSim x mb j = ((rawR xr mbr j : ℝ) : EReal) := by
  unfold rawSim rawR
  simp only [hx, bank_coe hmb, invTemp_eq, ← EReal.coe_mul, ← coe_sum]

end Coe

section Coe2

variable {x : Fin 128 → EReal} {mb : Fin 64 → Fin 128 → EReal}
  {xr : Fin 128 → ℝ} {mbr : Fin 64 → Fin 128 → ℝ}

theorem wK_coe (hx : ∀ k, x k = (xr k : EReal)) (hmb : ∀ j k, mb j k = (mbr j k : EReal)) (j : Fin 64) :
    wK x mb j = ((Real.exp (rawR xr mbr j * (1 / nR xr) - 1 / tempR) : ℝ) : EReal) := by
  unfold wK
  rw [rawSim_coe hx hmb, invNorm_coe hx, invTemp_eq, ← EReal.coe_mul, ← EReal.coe_sub, Ideal.exp_coe]

theorem wR_coe (hx : ∀ k, x k = (xr k : EReal)) (hmb : ∀ j k, mb j k = (mbr j k : EReal)) (M : ℝ)
    (j : Fin 64) : wR x mb (M : EReal) j = ((Real.exp (simR xr mbr j - M) : ℝ) : EReal) := by
  unfold wR
  rw [sim_coe hx hmb, ← EReal.coe_sub, Ideal.exp_coe]

/-- The running maximum of finitely many reals over a nonempty index set, started from `-∞`, is a real. -/
theorem rowMax_coe (hx : ∀ k, x k = (xr k : EReal)) (hmb : ∀ j k, mb j k = (mbr j k : EReal)) :
    ∃ Mr : ℝ, rowMax x mb = (Mr : EReal) := by
  unfold rowMax
  rw [negInf_eq, max_eq_right bot_le]
  simp only [sim_coe hx hmb]
  have hbot : (Finset.univ : Finset (Fin 64)).fold max (⊥ : EReal)
      (fun j => ((simR xr mbr j : ℝ) : EReal)) ≠ ⊥ := by
    have h : ((simR xr mbr 0 : ℝ) : EReal) ≤ (Finset.univ : Finset (Fin 64)).fold max (⊥ : EReal)
        (fun j => ((simR xr mbr j : ℝ) : EReal)) :=
      (Finset.le_fold_max _).2 (Or.inr ⟨0, Finset.mem_univ _, le_rfl⟩)
    exact ne_bot_of_le_ne_bot (EReal.coe_ne_bot _) h
  have htop : (Finset.univ : Finset (Fin 64)).fold max (⊥ : EReal)
      (fun j => ((simR xr mbr j : ℝ) : EReal)) ≠ ⊤ :=
    ne_of_lt ((Finset.fold_max_lt _).2 ⟨bot_lt_top, fun j _ => EReal.coe_lt_top _⟩)
  exact ⟨_, (EReal.coe_toReal htop hbot).symm⟩

end Coe2

/-! ## The identity over the reals -/

/-- A softmax weight does not depend on the shift. -/
theorem softmax_shift (s : Fin 64 → ℝ) (a b : ℝ) (j : Fin 64) :
    Real.exp (s j - a) * (1 / ∑ i : Fin 64, Real.exp (s i - a))
      = Real.exp (s j - b) * (1 / ∑ i : Fin 64, Real.exp (s i - b)) := by
  have h : ∀ i, Real.exp (s i - a) = Real.exp (s i - b) * Real.exp (b - a) := fun i => by
    rw [← Real.exp_add]; congr 1; ring
  have hpos : 0 < ∑ i : Fin 64, Real.exp (s i - b) :=
    Finset.sum_pos (fun i _ => Real.exp_pos _) ⟨j, Finset.mem_univ j⟩
  have he : 0 < Real.exp (b - a) := Real.exp_pos (b - a)
  simp only [h, ← Finset.sum_mul]
  field_simp

/-- The raw similarity scaled by the inverse norm is the similarity of the unit vector. -/
theorem rawR_mul (xr : Fin 128 → ℝ) (mbr : Fin 64 → Fin 128 → ℝ) (j : Fin 64) :
    rawR xr mbr j * (1 / nR xr) = simR xr mbr j := by
  unfold rawR simR unitR
  rw [Finset.sum_mul, Finset.sum_mul]
  exact Finset.sum_congr rfl (fun k _ => by ring)

theorem sum_exp_pos (s : Fin 64 → ℝ) : 0 < ∑ i : Fin 64, Real.exp (s i) :=
  Finset.sum_pos (fun i _ => Real.exp_pos _) ⟨0, Finset.mem_univ _⟩

/-- The two spellings agree. -/
theorem rowR_rowMax_eq_rowK (x : Fin 128 → EReal) (mb : Fin 64 → Fin 128 → EReal)
    (hx : ∀ k, ∃ r : ℝ, x k = (r : EReal)) (hmb : ∀ j k, ∃ r : ℝ, mb j k = (r : EReal)) (d : Fin 128) :
    rowR x mb (rowMax x mb) d = rowK x mb d := by
  choose xr hxr using hx
  choose mbr hmbr using hmb
  obtain ⟨M, hM⟩ := rowMax_coe hxr hmbr
  have hposR : (∑ i : Fin 64, Real.exp (simR xr mbr i - M)) ≠ 0 :=
    ne_of_gt (sum_exp_pos (fun i => simR xr mbr i - M))
  have hposK : (∑ i : Fin 64, Real.exp (rawR xr mbr i * (1 / nR xr) - 1 / tempR)) ≠ 0 :=
    ne_of_gt (sum_exp_pos (fun i => rawR xr mbr i * (1 / nR xr) - 1 / tempR))
  rw [hM]
  unfold rowR rowK
  simp only [wR_coe hxr hmbr, wK_coe hxr hmbr, ← coe_sum, Ideal.div_coe hposR, Ideal.div_coe hposK,
    unit_coe hxr, bank_coe hmbr, invNorm_coe hxr, hxr d, ← EReal.coe_mul, ← EReal.coe_add]
  congr 1
  simp only [rawR_mul]
  unfold unitR
  congr 1
  exact Finset.sum_congr rfl (fun j _ => by rw [softmax_shift _ M (1 / tempR)])

end Cert.EmaRow

end
-- ==== Proof.Finite.lean ====
/-
  From the finiteness precondition to real entries.

  The precondition is a one-bit value: the conjunction, over the two inputs, of "every entry `x` has
  `|x| < +∞`". Each "every entry" is a reduction by `and`, over all axes and from the constant 1, of the
  one-bit array of the comparisons; the two results are joined by one more `and`. The claim is that this
  value is 1.

  Over the extended reals `|x|` is `max x (-x)` and the pattern `0x7F800000` (sign 0, exponent all
  ones, fraction 0) denotes `⊤`. An `and` of one-bit words is 1 exactly when both words are, and a
  reduction by `and` from 1 that comes out 1 met a 1 at every index. So the claim gives, at every index
  of either input, `max x (-x) < ⊤`. An extended real is `⊥`, `⊤` or a coerced real: at `⊥` and at `⊤`
  the maximum `max x (-x)` is `⊤` itself, which is not strictly below `⊤`; what is left is a coerced
  real, and that real is the witness.
-/
import proofs.«131216_g85598698209303_cont_9to1_m_192_15_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Finite

open Idealize.ShloMosaic

/-- The scalar shape has no axis, so it has exactly one index. -/
instance : Subsingleton Cert.Pre_finite_inputs.S_.Idx := ⟨fun a b => funext fun d => d.elim0⟩

/-- The binary32 pattern of `+∞` denotes the top extended real. -/
theorem inf_eq_top : Ideal.ofBits .f32 0x7F800000#32 = (⊤ : EReal) := by
  simp [Ideal.ofBits, Ideal.ieee]

/-- An extended real whose absolute value `max x (-x)` is strictly below `⊤` is a real number:
    at `⊥` the maximum is `-⊥ = ⊤`, at `⊤` it is `⊤`, and neither is below `⊤`. -/
theorem real_of_abs_lt_top (x : EReal) (h : max x (-x) < ⊤) : ∃ r : ℝ, x = (r : EReal) := by
  induction x with
  | bot => simp at h
  | coe r => exact ⟨r, rfl⟩
  | top => simp at h

/-- One entry: if the comparison bit of `|x| < +∞` is 1 then `x` is a real number. The bit is the
    truth value of `max x (-x) < ⊤`; were that false the bit would be 0. -/
theorem real_of_bit (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  change Ideal.cmp .olt (max (x : EReal) (-(x : EReal))) (Ideal.ofBits .f32 0x7F800000#32) = 1#1 at h
  rw [inf_eq_top] at h
  change BitVec.ofBool (decide (max (x : EReal) (-(x : EReal)) < ⊤)) = 1#1 at h
  by_contra hn
  rw [decide_eq_false hn] at h
  exact absurd h (by decide)

/-- The precondition read back: if it evaluates to 1 then every entry of both inputs is a real number.
    The value at the one scalar index is the `and` of the two reductions; each being 1, every comparison
    bit under it is 1, and a broadcast constant read at an index is the constant, so the bit at index `i`
    is that of `|x i| < +∞`. -/
theorem reals_of_pre [Cert.Pre_finite_inputs.Facts]
    (X : FVec Ideal Cert.Pre_finite_inputs.S16x4096x128 .f32) (MB : FVec Ideal Cert.Pre_finite_inputs.S64x128 .f32)
    (h : Cert.Pre_finite_inputs.fn (F := Ideal) X MB = (fun _ => 1#1)) :
    (∀ i, ∃ r : ℝ, X i = (r : EReal)) ∧ (∀ i, ∃ r : ℝ, MB i = (r : EReal)) := by
  have h0 := congrFun h ValueIdx.ix0
  dsimp only [Cert.Pre_finite_inputs.fn] at h0
  obtain ⟨hX, hM⟩ := IntOp.andi_eq_one.1 h0
  refine ⟨fun i => ?_, fun i => ?_⟩
  · exact real_of_bit (X i) (Host.reduce_andi_all _ _ _ _ _ hX i)
  · exact real_of_bit (MB i) (Host.reduce_andi_all _ _ _ _ _ hM i)

end Cert.Finite
-- ==== Proof.lean ====
/-
  The kernel and its reference compute one function of the feature tensor `[16, 4096, 128]` and the
  memory bank `[64, 128]`, over the extended reals, on finite inputs.

  Per token row `x` both compute `x̂ + ∑_j a_j · m̂_j`, where `m̂_j` is bank row `j` divided by its
  Euclidean norm floored at `eps`, `x̂ = x / max ‖x‖ eps`, and `a` is the softmax over the 64 slots
  of `⟨x̂, m̂_j⟩ / temp`. They differ in three spellings, each an identity on finite reals:
  * the kernel multiplies by `(max ‖x‖² eps²)^(-1/2)` where the reference divides by `max ‖x‖ eps`
    (the square root is monotone and `eps > 0`), the kernel's floor being exactly `eps²`;
  * the kernel multiplies the bank's side by the reciprocal of the temperature and rescales the raw
    products by the inverse norm afterwards, where the reference divides the similarity of the unit
    vector by `temp` (a finite sum of reals is linear), the kernel's factor being exactly `1 / temp`;
  * the kernel shifts the softmax by the constant `1 / temp`, the reference by the row's maximum
    (a softmax does not depend on its shift).
  The two constants are the kernel's two named constants: each is named the exact rational its
  source expression denotes over the reference's own literal (`1 / temp`, `eps · eps`), and
  `preserves` records that the names denote those values.
  The kernel's result array is read off its run block by block (four grid points, four batches
  each) as the whole-array function `Cert.EmaRow.whole`; the reference's run is read operation by
  operation as the same function in its second spelling; finiteness of every input entry comes
  from the precondition.
-/
import proofs.«131216_g85598698209303_cont_9to1_m_192_15_alg».proof.Defs
import proofs.«131216_g85598698209303_cont_9to1_m_192_15_alg».proof.Proof.Gen.Kernel
import proofs.«131216_g85598698209303_cont_9to1_m_192_15_alg».proof.Proof.Gen.Kernel.Skeleton
import proofs.«131216_g85598698209303_cont_9to1_m_192_15_alg».proof.Proof.Gen.Kernel.Launch
import proofs.«131216_g85598698209303_cont_9to1_m_192_15_alg».proof.Proof.Gen.Kernel.Points
import proofs.«131216_g85598698209303_cont_9to1_m_192_15_alg».proof.Proof.Gen.Kernel.Frame
import proofs.«131216_g85598698209303_cont_9to1_m_192_15_alg».proof.Proof.Gen.KernelIdeal
import proofs.«131216_g85598698209303_cont_9to1_m_192_15_alg».proof.Proof.Gen.KernelIdeal.Skeleton
import proofs.«131216_g85598698209303_cont_9to1_m_192_15_alg».proof.Proof.Gen.KernelIdeal.Launch
import proofs.«131216_g85598698209303_cont_9to1_m_192_15_alg».proof.Proof.Gen.KernelIdeal.Points
import proofs.«131216_g85598698209303_cont_9to1_m_192_15_alg».proof.Proof.Gen.KernelIdeal.Frame
import proofs.«131216_g85598698209303_cont_9to1_m_192_15_alg».proof.Proof.Gen.ReferenceIdeal
import proofs.«131216_g85598698209303_cont_9to1_m_192_15_alg».proof.Proof.Gen.Pre_finite_inputs
import proofs.«131216_g85598698209303_cont_9to1_m_192_15_alg».proof.Proof.Gen.KernelIdeal.Value
import proofs.«131216_g85598698209303_cont_9to1_m_192_15_alg».proof.Proof.Gen.ReferenceIdeal.Run
import proofs.«131216_g85598698209303_cont_9to1_m_192_15_alg».proof.Proof.Gen.ReferenceIdeal.Read
import proofs.«131216_g85598698209303_cont_9to1_m_192_15_alg».proof.Proof.KernelWhole
import proofs.«131216_g85598698209303_cont_9to1_m_192_15_alg».proof.Proof.RefRead
import proofs.«131216_g85598698209303_cont_9to1_m_192_15_alg».proof.Proof.RowMath
import proofs.«131216_g85598698209303_cont_9to1_m_192_15_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- On arrays whose every entry is a real number, the reference's result array is the whole-array
    function: entry by entry the second spelling of the row function, which on a real row and a real
    bank is the first. -/
theorem reference_eq_whole
    (X : (⟨Cert.ReferenceIdeal.S16x4096x128, .f32⟩ : BufTy).Contents (Elt Ideal))
    (MB : (⟨Cert.ReferenceIdeal.S64x128, .f32⟩ : BufTy).Contents (Elt Ideal))
    (hX : ∀ i, ∃ r : ℝ, X i = (r : EReal)) (hMB : ∀ i, ∃ r : ℝ, MB i = (r : EReal)) :
    Cert.ReferenceIdeal.Read.val_main_v34 (F := Ideal) X MB = Cert.EmaRow.whole X MB := by
  funext i
  obtain ⟨b, s, d, rfl⟩ : ∃ (b : Fin 16) (s : Fin 4096) (d : Fin 128), i = ix3 b s d := ⟨i 0, i 1, i 2, eq_ix3 i⟩
  rw [Cert.RefRead.result_apply, Cert.EmaRow.whole_ix3]
  exact Cert.EmaRow.rowR_rowMax_eq_rowK _ _ (fun k => hX _) (fun j k => hMB _) d

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The three named sites: the table gives `"inv_temperature"` the value `2^27 / 9395241` (twice) and
    `"eps_squared"` the value `(2305843 / 2^61)²`, and the printed constants denote those values. -/
theorem preserves : Cert.preserves_Kernel_KernelIdeal :=
  ⟨IdealRules.named_const.statement Cert.KernelIdeal.κ "inv_temperature" .f32 0x41649249#32 ((134217728 / 9395241 : ℝ) : EReal) rfl,
   IdealRules.named_const.statement Cert.KernelIdeal.κ "eps_squared" .f32 0x179ABE15#32 ((5316911940649 / 5316911983139663491615228241121378304 : ℝ) : EReal) rfl,
   IdealRules.named_const.statement Cert.KernelIdeal.κ "inv_temperature" .f32 0x41649249#32 ((134217728 / 9395241 : ℝ) : EReal) rfl⟩

/-- Both runs end with the result array at the whole-array function of the arguments: the kernel's by its
    blocks, the reference's by its operations, the two spellings joined on the finite inputs the
    precondition grants. -/
theorem algebraic : Cert.algebraic_KernelIdeal_ReferenceIdeal := by
  intro m ρ m' ρ' hpre hagree
  refine ⟨fun c => Cert.EmaRow.whole (m ((c : Thread Cert.KernelIdeal.nD Cert.KernelIdeal.τ).loc Cert.KernelIdeal.main_arg0))
      (m ((c : Thread Cert.KernelIdeal.nD Cert.KernelIdeal.τ).loc Cert.KernelIdeal.main_arg1)), Cert.KernelWhole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  obtain ⟨hX, hMB⟩ := Cert.Finite.reals_of_pre _ _ (hpre c)
  exact reference_eq_whole _ _ hX hMB

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
